-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x1600000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩

abbrev nBuf : Space → Nat
  | .hbm => 63
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S128x128, .f32⟩
  | .hbm, ⟨45, _⟩ => ⟨S100000x128, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x128, .f32⟩
  | .hbm, ⟨55, _⟩ => ⟨S1700000x1, .f32⟩
  | .hbm, ⟨56, _⟩ => ⟨S1700000x128, .f32⟩
  | .hbm, ⟨57, _⟩ => ⟨S1700000x128, .f32⟩
  | .hbm, ⟨58, _⟩ => ⟨S_, .f32⟩
  | .hbm, ⟨59, _⟩ => ⟨S100000x128, .f32⟩
  | .hbm, ⟨60, _⟩ => ⟨S1700000x1, .i32⟩
  | .hbm, ⟨61, _⟩ => ⟨S100000x128, .f32⟩
  | .hbm, ⟨62, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128, .f32⟩
  | .local _ .vmem, ⟨8, _⟩ => ⟨S10000x128, .f32⟩
  | .local _ .vmem, ⟨9, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S128x128_S128x128_1_0 : S128x128.Transposes [1, 0] S128x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S10000x128_S10000x128 : S10000x128.ShapeCasts S10000x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 68
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S128x128, .f32⟩
  | .hbm, ⟨45, _⟩ => ⟨S100000x128, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x128, .f32⟩
  | .hbm, ⟨55, _⟩ => ⟨S1700000x1, .f32⟩
  | .hbm, ⟨56, _⟩ => ⟨S1700000x128, .f32⟩
  | .hbm, ⟨57, _⟩ => ⟨S1700000x128, .f32⟩
  | .hbm, ⟨58, _⟩ => ⟨S_, .f32⟩
  | .hbm, ⟨59, _⟩ => ⟨S100000x128, .f32⟩
  | .hbm, ⟨60, _⟩ => ⟨S1700000x1, .i32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S100000x128, .f32⟩
  | .hbm, ⟨67, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call1_cst : Ref sig .tc := ⟨.hbm, 65, rfl⟩
abbrev main_call1_v0 : Ref sig .tc := ⟨.hbm, 66, rfl⟩
abbrev main_v48 : Ref sig .tc := ⟨.hbm, 67, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S128x128_S128x128_1_0 : S128x128.Transposes [1, 0] S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.Spec.lean ====
/-
  The two dense maps of the layer, as functions of whole arrays over the extended reals.

  * `proj X Wt`: the projected node features, `h[n, j] = ∑ k, X[n, k] · Wt[k, j]` (Wt is the weight transposed, so this
    is `x @ W.T`): what a row block of the tiled product holds at a row, and what one whole contraction holds at it.
  * `biasRelu A b`: the epilogue `max (A[n, j] + b[j]) 0`, elementwise in the node index, the bias read at the feature.

  Between them the layer gathers, scales and scatter-adds `h` along the edges; that stretch is the same sequence of host
  operations in both programs and is carried as one function of `h` (RefChain.lean), never opened.
-/
import Idealize.ShloMosaic.PureOps.Ideal
import Idealize.ShloMosaic.Lib.ValueIdx

noncomputable section

namespace Cert.Spec

open Idealize.ShloMosaic

/-- node features: 100000 nodes, 128 features -/
abbrev SN : Shape := ⟨2, ![100000, 128]⟩
/-- the weight (and its transpose): 128 × 128 -/
abbrev SW : Shape := ⟨2, ![128, 128]⟩
/-- the bias: 128 -/
abbrev SB : Shape := ⟨1, ![128]⟩

/-- entry `k` of the row of `X` that index `i` lies in -/
abbrev rowAt (i : SN.Idx) (k : Fin 128) : SN.Idx := fun a => match a with
  | ⟨0, _⟩ => ⟨(i 0).val, (i 0).isLt⟩
  | ⟨1, _⟩ => ⟨k.val, k.isLt⟩
/-- entry `k` of the column of `Wt` that index `i`'s feature names -/
abbrev colAt (i : SN.Idx) (k : Fin 128) : SW.Idx := fun a => match a with
  | ⟨0, _⟩ => ⟨k.val, k.isLt⟩
  | ⟨1, _⟩ => ⟨(i 1).val, (i 1).isLt⟩
/-- the bias entry of index `i`'s feature -/
abbrev featAt (i : SN.Idx) : SB.Idx := fun a => match a with
  | ⟨0, _⟩ => ⟨(i 1).val, (i 1).isLt⟩

/-- `h = X · Wt`: each entry the sum over the 128 input features of a row entry times a column entry. -/
def proj (X : SN.Idx → EReal) (Wt : SW.Idx → EReal) : SN.Idx → EReal :=
  fun i => ∑ k : Fin 128, X (rowAt i k) * Wt (colAt i k)

variable {F : FTy → Type} [FloatOps F]

/-- `max (A + b) 0`, the bias broadcast along the nodes, the zero the float `+0`. -/
def biasRelu (A : SN.Idx → F .f32) (b : SB.Idx → F .f32) : SN.Idx → F .f32 :=
  fun i => FloatOps.maximumf (FloatOps.addf (A i) (b (featAt i))) (FloatOps.ofBits .f32 0x00000000#32)

end Cert.Spec

end
-- ==== Proof.RefChain.lean ====
/-
  The reference, read as: epilogue ∘ edge stretch ∘ projection.

  Between the projection `h = x @ W.T` and the epilogue the layer does, in both programs, the same sequence of host
  operations: gather `h` at the (wrapped) source nodes, scale each message by the product of the two inverse square-root
  degrees, and scatter-add the messages at the target nodes into a zero array. All of that is ONE function of `h` and the
  edge list, `edgeSum h e`; nothing in this certificate looks inside it. The index arrays and the degree normalization it
  uses are the reference's own stages of the edge list.

  With it the reference's result is `biasRelu (edgeSum (proj x (transpose W)) e) b`: the contraction read as a sum at an
  index, the two bias broadcasts read down to the bias entry of the feature, the maximum against the broadcast zero.
-/
import proofs.«151086_j4217657884682_1_alg».proof.Proof.ReadP
import proofs.«151086_j4217657884682_1_alg».proof.Proof.Spec

noncomputable section

namespace Cert.ReferenceIdeal.Chain

open Cert.ReferenceIdeal Cert.ReferenceIdeal.Gen Cert.ReferenceIdeal.ReadP Idealize.ShloMosaic Idealize.ShloMosaic.TcCoe Idealize.SL.Sem

variable {F : FTy → Type} [FloatOps F]

/-- The edge stretch as a function of the projected features `h` and the edge list `e`: the messages `h[src] · norm`
    summed at their targets. -/
def edgeSum (h : (⟨S100000x128, .f32⟩ : BufTy).Contents (Elt F)) (e : (⟨S2x1600000, .i32⟩ : BufTy).Contents (Elt F)) :
    (⟨S100000x128, .f32⟩ : BufTy).Contents (Elt F) :=
  Host.scatterAdd scatter_S100000x128_S1700000x1_S1700000x128_1_0_0_1 (val_main_v42 (F := F)) (val_main_v43 (F := F) e)
    (mulf (Host.gather gather_S100000x128_S1700000x1_S1700000x128_1_0_n_n_0_1_1128 h (val_main_v37 (F := F) e)) (val_main_v40 (F := F) e))

/-- The reference's aggregated features are the edge stretch of its projected features. -/
theorem aggregated_eq (x0 : (⟨S100000x128, .f32⟩ : BufTy).Contents (Elt F)) (x1 : (⟨S2x1600000, .i32⟩ : BufTy).Contents (Elt F))
    (x2 : (⟨S128x128, .f32⟩ : BufTy).Contents (Elt F)) :
    val_main_v44 (F := F) x0 x1 x2 = edgeSum (val_main_v31 (F := F) x0 x2) x1 := by
  unfold val_main_v44 val_main_v41 val_main_v38 edgeSum
  rfl

/-- The reference's contraction is the sum `proj` names, entry by entry. -/
theorem projected_eq (x0 : (⟨S100000x128, .f32⟩ : BufTy).Contents (Elt Ideal)) (x2 : (⟨S128x128, .f32⟩ : BufTy).Contents (Elt Ideal)) :
    val_main_v31 (F := Ideal) x0 x2 = Spec.proj x0 (val_main_v30 (F := Ideal) x2) :=
  funext fun i => val_main_v31_apply x0 x2 i

/-- The two bias broadcasts read at an index come down to the bias entry of the index's feature. -/
theorem bias_idx (i : S100000x128.Idx) : idx_main_v45 (idx_main_v46 i) = Spec.featAt i :=
  funext fun a => by match a with | ⟨0, _⟩ => rfl

/-- The reference's result, over the extended reals. -/
theorem result_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal)) :
    val_main_v48 (F := Ideal) x0 x1 x2 x3
      = Spec.biasRelu (edgeSum (Spec.proj x0 (val_main_v30 (F := Ideal) x2)) x1) x3 := by
  funext i
  rw [val_main_v48_apply, val_main_v47_apply, val_main_call1_v0_apply, val_main_call1_cst_apply, val_main_v46_apply,
    val_main_v45_apply, aggregated_eq, projected_eq, bias_idx]
  rfl

end Cert.ReferenceIdeal.Chain

end
-- ==== Proof.HostChain.lean ====
/-
  The host operations around the two kernels, read one stretch at a time, for any float family.

  Before the first kernel @main computes, from the edge list alone, the source and target node arrays with the self loops
  appended, the degrees, their inverse square roots (zero where the degree is not positive) and the per-edge product of
  the two ends' factors; and it transposes the weight. Between the kernels it gathers the first kernel's result along the
  source nodes, scales, and scatter-adds along the target nodes. Each value below is what one stretch leaves in one buffer,
  as the reference's own stage of the arguments: the operations are the same, one for one.

  Every stretch is read from ANY contents `Wp` of the buffers before it, given what the few buffers it reads hold; the
  contents at the stretch's start are then supplied by the stretch before. Nothing here depends on what a float is.
-/
import proofs.«151086_j4217657884682_1_alg».proof.Proof.Gen.KernelIdeal.Frame
import proofs.«151086_j4217657884682_1_alg».proof.Proof.RefChain

set_option maxRecDepth 16384

noncomputable section

namespace Cert.KernelIdeal.HostChain

open Cert.KernelIdeal Cert.KernelIdeal.Gen Idealize.ShloMosaic Idealize.ShloMosaic.TcCoe Idealize.SL.Sem Idealize.ShloMosaic.StableHlo

variable {F : FTy → Type} [FloatOps F]

/-! ## The first stretch: node arrays, degrees -/

section First
variable (Wp : Valuation τ sig (Elt F))

theorem first_src : StableHlo.after hostOps0 Wp (Proc.devRef .tc main_v3) = Cert.ReferenceIdeal.ReadP.val_main_v3 (F := F) (Wp (Proc.devRef .tc main_arg1)) := by
  after_results
  rfl
theorem first_dst : StableHlo.after hostOps0 Wp (Proc.devRef .tc main_v6) = Cert.ReferenceIdeal.ReadP.val_main_v6 (F := F) (Wp (Proc.devRef .tc main_arg1)) := by
  after_results
  rfl
theorem first_pos : StableHlo.after hostOps0 Wp (Proc.devRef .tc main_v12) = Cert.ReferenceIdeal.ReadP.val_main_v12 (F := F) (Wp (Proc.devRef .tc main_arg1)) := by
  after_results
  rfl
theorem first_rsqrt : StableHlo.after hostOps0 Wp (Proc.devRef .tc main_v13) = Cert.ReferenceIdeal.ReadP.val_main_v13 (F := F) (Wp (Proc.devRef .tc main_arg1)) := by
  after_results
  rfl
theorem first_zero : StableHlo.after hostOps0 Wp (Proc.devRef .tc main_cst_2) = Cert.ReferenceIdeal.ReadP.val_main_cst_2 (F := F) := by
  after_results
  rfl
theorem first_keeps_w : StableHlo.after hostOps0 Wp (Proc.devRef .tc main_arg2) = Wp (Proc.devRef .tc main_arg2) := by
  after_results
theorem first_keeps_x : StableHlo.after hostOps0 Wp (Proc.devRef .tc main_arg0) = Wp (Proc.devRef .tc main_arg0) := by
  after_results
theorem first_keeps_b : StableHlo.after hostOps0 Wp (Proc.devRef .tc main_arg3) = Wp (Proc.devRef .tc main_arg3) := by
  after_results
end First

/-! ## The second stretch: the inverse square-root degrees, zero where the degree is not positive -/

section Second
variable (Wp : Valuation τ sig (Elt F)) (e : (⟨Cert.ReferenceIdeal.S2x1600000, .i32⟩ : BufTy).Contents (Elt F))

theorem second_dinv (hpos : Wp (Proc.devRef .tc main_v12) = Cert.ReferenceIdeal.ReadP.val_main_v12 (F := F) e)
    (hrs : Wp (Proc.devRef .tc main_v13) = Cert.ReferenceIdeal.ReadP.val_main_v13 (F := F) e)
    (hz : Wp (Proc.devRef .tc main_cst_2) = Cert.ReferenceIdeal.ReadP.val_main_cst_2 (F := F)) :
    StableHlo.after hostOps0_1 Wp (Proc.devRef .tc main_v14) = Cert.ReferenceIdeal.ReadP.val_main_v14 (F := F) e := by
  after_results
  rw [hpos, hrs, hz]
  rfl
theorem second_keeps_src : StableHlo.after hostOps0_1 Wp (Proc.devRef .tc main_v3) = Wp (Proc.devRef .tc main_v3) := by
  after_results
theorem second_keeps_dst : StableHlo.after hostOps0_1 Wp (Proc.devRef .tc main_v6) = Wp (Proc.devRef .tc main_v6) := by
  after_results
theorem second_keeps_w : StableHlo.after hostOps0_1 Wp (Proc.devRef .tc main_arg2) = Wp (Proc.devRef .tc main_arg2) := by
  after_results
theorem second_keeps_x : StableHlo.after hostOps0_1 Wp (Proc.devRef .tc main_arg0) = Wp (Proc.devRef .tc main_arg0) := by
  after_results
theorem second_keeps_b : StableHlo.after hostOps0_1 Wp (Proc.devRef .tc main_arg3) = Wp (Proc.devRef .tc main_arg3) := by
  after_results
end Second

/-! ## The third stretch: the per-edge normalization, and the weight transposed -/

section Third
variable (Wp : Valuation τ sig (Elt F)) (e : (⟨Cert.ReferenceIdeal.S2x1600000, .i32⟩ : BufTy).Contents (Elt F))

theorem third_norm (hs : Wp (Proc.devRef .tc main_v3) = Cert.ReferenceIdeal.ReadP.val_main_v3 (F := F) e)
    (hd : Wp (Proc.devRef .tc main_v6) = Cert.ReferenceIdeal.ReadP.val_main_v6 (F := F) e)
    (hv : Wp (Proc.devRef .tc main_v14) = Cert.ReferenceIdeal.ReadP.val_main_v14 (F := F) e) :
    StableHlo.after hostOps0_2 Wp (Proc.devRef .tc main_v29) = Cert.ReferenceIdeal.ReadP.val_main_v29 (F := F) e := by
  after_results_simp
  rw [hs, hd, hv]
  rfl
theorem third_wt : StableHlo.after hostOps0_2 Wp (Proc.devRef .tc main_v30) = Cert.ReferenceIdeal.ReadP.val_main_v30 (F := F) (Wp (Proc.devRef .tc main_arg2)) := by
  after_results
  rfl
theorem third_keeps_src : StableHlo.after hostOps0_2 Wp (Proc.devRef .tc main_v3) = Wp (Proc.devRef .tc main_v3) := by
  after_results
theorem third_keeps_dst : StableHlo.after hostOps0_2 Wp (Proc.devRef .tc main_v6) = Wp (Proc.devRef .tc main_v6) := by
  after_results
theorem third_keeps_x : StableHlo.after hostOps0_2 Wp (Proc.devRef .tc main_arg0) = Wp (Proc.devRef .tc main_arg0) := by
  after_results
theorem third_keeps_b : StableHlo.after hostOps0_2 Wp (Proc.devRef .tc main_arg3) = Wp (Proc.devRef .tc main_arg3) := by
  after_results
end Third

/-! ## Between the kernels: gather, scale, scatter-add -/

section Between
variable (Wp : Valuation τ sig (Elt F)) (e : (⟨Cert.ReferenceIdeal.S2x1600000, .i32⟩ : BufTy).Contents (Elt F))

theorem between_agg (hs : Wp (Proc.devRef .tc main_v3) = Cert.ReferenceIdeal.ReadP.val_main_v3 (F := F) e)
    (hd : Wp (Proc.devRef .tc main_v6) = Cert.ReferenceIdeal.ReadP.val_main_v6 (F := F) e)
    (hn : Wp (Proc.devRef .tc main_v29) = Cert.ReferenceIdeal.ReadP.val_main_v29 (F := F) e) :
    StableHlo.after hostOps1 Wp (Proc.devRef .tc main_v44)
      = Cert.ReferenceIdeal.Chain.edgeSum (F := F) (Wp (Proc.devRef .tc main_v31)) e := by
  after_results_simp
  rw [hs, hd, hn]
  rfl
theorem between_keeps_b : StableHlo.after hostOps1 Wp (Proc.devRef .tc main_arg3) = Wp (Proc.devRef .tc main_arg3) := by
  after_results
end Between

end Cert.KernelIdeal.HostChain

end
-- ==== Proof.ProjBlock.lean ====
/-
  What the first kernel's body stores, at an index of its row block, over the extended reals.

  The body loads a block of 10000 rows of `x` and the whole transposed weight, narrows both to bf16 (the identity on
  extended reals), and stores their matrix product accumulated into zero. So at row `p`, feature `q` of the block it
  holds `∑ k, x[p, k] · wt[k, q]`: the contraction's one axis enumerated by `Fin 128`, the left operand read along the
  row, the right along the column.
-/
import proofs.«151086_j4217657884682_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.ProjBlock

open Cert.KernelIdeal Cert.KernelIdeal.Gen Idealize.ShloMosaic Idealize.ShloMosaic.TcCoe Idealize.SL.Sem

/-! The contraction's operand indices, axis by axis (rows × contraction times contraction × columns). -/

theorem lhs_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_contr (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_contr (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_col (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- entry `k` of the block row that `i` lies in -/
abbrev brow (i : S10000x128.Idx) (k : Fin 128) : S10000x128.Idx := fun a => match a with
  | ⟨0, _⟩ => ⟨(i 0).val, (i 0).isLt⟩
  | ⟨1, _⟩ => ⟨k.val, k.isLt⟩
/-- entry `k` of the weight column that `i`'s feature names -/
abbrev bcol (i : S10000x128.Idx) (k : Fin 128) : S128x128.Idx := fun a => match a with
  | ⟨0, _⟩ => ⟨k.val, k.isLt⟩
  | ⟨1, _⟩ => ⟨(i 1).val, (i 1).isLt⟩

/-- The stored block at an index: the row of `x` against the column of `wt`. The narrowing to bf16 and the widening of
    the product are the identity here, the accumulator is the zero vector, and a cast to the same shape moves nothing. -/
theorem stored_apply (x : Vec Ideal S10000x128 .f32) (wt : Vec Ideal S128x128 .f32) (i : S10000x128.Idx) :
    k0_pay1 (F := Ideal) x wt i = ∑ k : Fin 128, x (brow i k) * wt (bcol i k) := by
  unfold k0_pay1
  rw [shapeCast_self]
  refine (Ideal.matmul_constant_zero_apply dot_S10000x128_S128x128_S10000x128_1_0_0_1_n_n none _ _ i).trans ?_
  rw [← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx i ((ValueIdx.contrEquiv1 dot_S10000x128_S128x128_S10000x128_1_0_0_1_n_n 128 rfl rfl).symm k) = brow i k := funext fun a => Fin.ext (by
    match a with
    | ⟨0, _⟩ => exact lhs_row _ _
    | ⟨1, _⟩ => exact (lhs_contr _ _).trans hk)
  have er : dot_S10000x128_S128x128_S10000x128_1_0_0_1_n_n.rhsIdx i ((ValueIdx.contrEquiv1 dot_S10000x128_S128x128_S10000x128_1_0_0_1_n_n 128 rfl rfl).symm k) = bcol i k := funext fun a => Fin.ext (by
    match a with
    | ⟨0, _⟩ => exact (rhs_contr _ _).trans hk
    | ⟨1, _⟩ => exact rhs_col _ _)
  rw [el, er]
  rfl

end Cert.KernelIdeal.ProjBlock

end
-- ==== Proof.ProjArray.lean ====
/-
  The projected features as one array: after the first kernel's run the result array holds `Spec.proj x wt`.

  The grid has ten points; point `t` reads rows `10000 t … 10000 t + 9999` of `x` and the whole transposed weight, and
  writes the same rows of the result. A row of the product depends only on that row of `x`, so what point `t` writes back
  is rows `10000 t …` of the whole product, and the ten row blocks tile the 100000 rows.

  Stated at ANY contents `V` of the buffers at the region's entry: the run instantiates it.
-/
import proofs.«151086_j4217657884682_1_alg».proof.Proof.Gen.KernelIdeal.Frame
import proofs.«151086_j4217657884682_1_alg».proof.Proof.ProjBlock
import proofs.«151086_j4217657884682_1_alg».proof.Proof.Spec

set_option maxRecDepth 16384

noncomputable section

namespace Cert.KernelIdeal.ProjArray

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-- the node features as the region finds them, at their literal type -/
abbrev xarr (c : Dev nD) : Vec Ideal S100000x128 .f32 := V c main_arg0
/-- the transposed weight as the region finds it, at its literal type -/
abbrev wtarr (c : Dev nD) : Vec Ideal S128x128 .f32 := V c main_v30

theorem origin : (![0, 0] : Fin 2 → Nat) = fun _ => 0 := funext fun a => by fin_cases a <;> rfl

/-- The block index maps over the grid: the feature block of `x` and the result block move together down the rows, one
    block per point; nothing moves along the features, and the weight is one block. -/
theorem blockIdx : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is rows `10000 t …` of the whole product of the arrays as the region finds them. -/
theorem writtenBack (c : Dev nD) (t : Fin cfg0.N) :
    (dat0 V c).flushed 2 t = ((cfg0.win 2).blk t).view.read (Elt Ideal) (Spec.proj (V c main_arg0) (V c main_v30)) := by
  show (cfg0.win 2).cut (grid0.coords t) ((dat0 V c).after 2 t) = _
  rw [after0_2]
  unfold out0_2
  rw [View.canon_unit_zero origin]
  simp only [View.ld_unit_zero (S := S10000x128) origin, View.ld_unit_zero (S := S128x128) origin]
  obtain ⟨e0, e1, e2, e3, e4, e5⟩ := blockIdx t
  funext j
  refine (ProjBlock.stored_apply (iblk0 V c 0 t) (iblk0 V c 1 t) j).trans ?_
  show _ = ∑ k : Fin 128, xarr V c (Spec.rowAt (((cfg0.win 2).blk t).view.emb j) k) * wtarr V c (Spec.colAt (((cfg0.win 2).blk t).view.emb j) k)
  refine Finset.sum_congr rfl fun k _ => ?_
  have h0 : ((cfg0.win 0).blk t).view.emb (ProjBlock.brow j k) = Spec.rowAt (((cfg0.win 2).blk t).view.emb j) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : ((cfg0.win 1).blk t).view.emb (ProjBlock.bcol j k) = Spec.colAt (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  show xarr V c (((cfg0.win 0).blk t).view.emb (ProjBlock.brow j k)) * wtarr V c (((cfg0.win 1).blk t).view.emb (ProjBlock.bcol j k)) = _
  rw [h0, h1]

/-- An index of the result array is in point `t`'s block iff each coordinate is in the block's range on its axis. -/
theorem mem_block (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v31).slice (win0_2.rect t)).set ↔ _
  rw [View.set_slice_whole, Rect.mem_set_unit]
  exact Iff.rfl

/-- Row `r` is in the block of point `r / 10000`: the ten blocks tile the array. -/
theorem tiled (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  let t : Fin cfg0.N := ⟨(i 0).val / 10000, by rw [show cfg0.N = 10 from N_0]; omega⟩
  obtain ⟨e0, e1, e2, e3, e4, e5⟩ := blockIdx t
  have e4' : win0_2.index t (0 : Fin 2) = (i 0).val / 10000 := e4
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The result array after the run is the whole product of the arrays as the region finds them. -/
theorem final (c : Dev nD) : (dat0 V c).arrAt 2 cfg0.N = Spec.proj (V c main_arg0) (V c main_v30) :=
  (dat0 V c).arrAt_eq_of_cover 2 (Spec.proj (V c main_arg0) (V c main_v30)) (fun t _ => writtenBack V c t) tiled

end Cert.KernelIdeal.ProjArray

end
-- ==== Proof.EpiBlock.lean ====
/-
  What the second kernel's body stores, at an index of its row block.

  The body loads a block of 10000 rows of the aggregated features and the whole bias, lays the bias out as one row,
  repeats that row down the block, adds, and takes the maximum with the float zero. So at row `p`, feature `q` it holds
  `max (agg[p, q] + b[q]) 0`: nothing but the bias's own entry `q` reaches the sum, whatever the row.
-/
import proofs.«151086_j4217657884682_1_alg».proof.Proof.Gen.KernelIdeal.Skeleton
import Idealize.ShloMosaic.Lib.Pipeline.Value
import Idealize.ShloMosaic.Lib.ValueIdx
import Idealize.ShloMosaic.Lib.ValueLayout

noncomputable section

namespace Cert.KernelIdeal.EpiBlock

open Cert.KernelIdeal Cert.KernelIdeal.Gen Idealize.ShloMosaic Idealize.ShloMosaic.TcCoe Idealize.SL.Sem Idealize.ShloMosaic.ValueIdx

variable {F : FTy → Type} [FloatOps F]

/-- The stored block at row `p`, feature `q`: the loaded entry plus the bias at `q`, clamped below at zero. The cast of
    the block to its own shape moves nothing; the bias as a 1 × 128 row read at column `q` is its entry `q`; the row
    repeated over 10000 rows read at `(p, q)` is the row at `q`. -/
theorem stored_apply (x : Vec F S10000x128 .f32) (b : Vec F S128 .f32) (p : Fin 10000) (q : Fin 128) :
    k1_pay1 (F := F) x b (ix2 p q)
      = FloatOps.maximumf (FloatOps.addf (x (ix2 p q)) (b (ix1 q))) (FloatOps.ofBits .f32 0x00000000#32) := by
  unfold k1_pay1
  rw [shapeCast_self]
  simp only [maximumf, addf, broadcast]
  rw [broadcastTo_1b_ab_apply, shapeCast_a_1a_apply]

end Cert.KernelIdeal.EpiBlock

end
-- ==== Proof.EpiArray.lean ====
/-
  The epilogue as one array: after the second kernel's run the result array holds `Spec.biasRelu agg b`.

  Ten points again; point `t` reads rows `10000 t …` of the aggregated features and the whole bias, and writes the same
  rows of the result. The stored value at `(p, q)` depends only on the entry `(p, q)` it loaded and on the bias at `q`, so
  what point `t` writes back is rows `10000 t …` of the elementwise map of the whole array, and the blocks tile the rows.

  Stated at ANY contents `V` of the buffers at the region's entry, and for any float family.
-/
import proofs.«151086_j4217657884682_1_alg».proof.Proof.Gen.KernelIdeal.Frame
import proofs.«151086_j4217657884682_1_alg».proof.Proof.EpiBlock
import proofs.«151086_j4217657884682_1_alg».proof.Proof.Spec

set_option maxRecDepth 16384

noncomputable section

namespace Cert.KernelIdeal.EpiArray

open Cert.KernelIdeal Cert.KernelIdeal.Gen Idealize.ShloMosaic Idealize.ShloMosaic.TcCoe Idealize.SL.Sem Idealize.ShloMosaic.ValueIdx
open Idealize.ShloMosaic.Pipeline (Dat Cfg Window)

variable {F : FTy → Type} [FloatOps F]
variable (V : (c : Dev nD) → (b : Ref sig .tc) → Buf (Elt F) ((c : Thread nD τ).loc b))

theorem origin2 : (![0, 0] : Fin 2 → Nat) = fun _ => 0 := funext fun a => by fin_cases a <;> rfl
theorem origin1 : (![0] : Fin 1 → Nat) = fun _ => 0 := funext fun a => by fin_cases a; rfl

/-- The block index maps over the grid: the aggregated block and the result block move together down the rows, one
    block per point; the bias is one block. -/
theorem blockIdx : ∀ t : Fin cfg1.N, win1_0.index t (0 : Fin 2) = t.val
    ∧ win1_0.index t (1 : Fin 2) = 0
    ∧ win1_1.index t (0 : Fin 1) = 0
    ∧ win1_2.index t (0 : Fin 2) = t.val
    ∧ win1_2.index t (1 : Fin 2) = 0 :=
  (by decide +kernel : ∀ t : Fin grid1.N, _)

/-- What point `t` writes back is rows `10000 t …` of the elementwise map of the arrays as the region finds them. -/
theorem writtenBack (c : Dev nD) (t : Fin cfg1.N) :
    (dat1 V c).flushed 2 t = ((cfg1.win 2).blk t).view.read (Elt F) (Spec.biasRelu (V c main_v44) (V c main_arg3)) := by
  show (cfg1.win 2).cut (grid1.coords t) ((dat1 V c).after 2 t) = _
  rw [after1_2]
  unfold out1_2
  rw [View.canon_unit_zero origin2]
  simp only [View.ld_unit_zero (S := S10000x128) origin2, View.ld_unit_zero (S := S128) origin1]
  obtain ⟨e0, e1, e2, e3, e4⟩ := blockIdx t
  funext j
  obtain ⟨p, q, rfl⟩ : ∃ (p : Fin 10000) (q : Fin 128), j = ix2 p q := ⟨j 0, j 1, eq_ix2 j⟩
  refine (EpiBlock.stored_apply (iblk1 V c 0 t) (iblk1 V c 1 t) p q).trans ?_
  have h0 : ((cfg1.win 0).blk t).view.emb (ix2 p q) = ((cfg1.win 2).blk t).view.emb (ix2 p q) := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 128 + 1 * q.val = win1_2.index t (1 : Fin 2) * 128 + 1 * q.val; omega
  have h1 : ((cfg1.win 1).blk t).view.emb (ix1 q) = Spec.featAt (((cfg1.win 2).blk t).view.emb (ix2 p q)) := by
    funext a; apply Fin.ext
    match a with
    | ⟨0, _⟩ => show win1_1.index t (0 : Fin 1) * 128 + 1 * q.val = win1_2.index t (1 : Fin 2) * 128 + 1 * q.val; omega
  show FloatOps.maximumf (FloatOps.addf (V c main_v44 (((cfg1.win 0).blk t).view.emb (ix2 p q))) (V c main_arg3 (((cfg1.win 1).blk t).view.emb (ix1 q)))) (FloatOps.ofBits .f32 0x00000000#32) = _
  rw [h0, h1]
  rfl

/-- An index of the result array is in point `t`'s block iff each coordinate is in the block's range on its axis. -/
theorem mem_block (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v45).slice (win1_2.rect t)).set ↔ _
  rw [View.set_slice_whole, Rect.mem_set_unit]
  exact Iff.rfl

/-- Row `r` is in the block of point `r / 10000`: the ten blocks tile the array. -/
theorem tiled (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  let t : Fin cfg1.N := ⟨(i 0).val / 10000, by rw [show cfg1.N = 10 from N_1]; omega⟩
  obtain ⟨e0, e1, e2, e3, e4⟩ := blockIdx t
  have e3' : win1_2.index t (0 : Fin 2) = (i 0).val / 10000 := e3
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The result array after the run is the elementwise map of the arrays as the region finds them. -/
theorem final (c : Dev nD) : (dat1 V c).arrAt 2 cfg1.N = Spec.biasRelu (V c main_v44) (V c main_arg3) :=
  (dat1 V c).arrAt_eq_of_cover 2 (Spec.biasRelu (V c main_v44) (V c main_arg3)) (fun t _ => writtenBack V c t) tiled

end Cert.KernelIdeal.EpiArray

end
-- ==== Proof.KernelChain.lean ====
/-
  The kernel's result, read back from the run to the arguments.

  The run leaves the result array at what the second kernel's pipeline leaves: `biasRelu` of the aggregated features and
  the bias as that region finds them (EpiArray). The aggregated features are what the host stretch between the two kernels
  computes from the first kernel's result, the node arrays and the normalization: the edge stretch `edgeSum` applied to the
  first kernel's result (HostChain). That result is `proj` of the node features and the transposed weight as the first
  region finds them (ProjArray). And the node arrays, the normalization, the transposed weight and the arguments, at those
  points of the run, are the three stretches before the first kernel applied in turn to the launch contents (HostChain):
  the reference's own stages of the arguments.
-/
import proofs.«151086_j4217657884682_1_alg».proof.Proof.KernelRun
import proofs.«151086_j4217657884682_1_alg».proof.Proof.ProjArray
import proofs.«151086_j4217657884682_1_alg».proof.Proof.EpiArray
import proofs.«151086_j4217657884682_1_alg».proof.Proof.HostChain

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo
open Cert.KernelIdeal.HostChain

/-! ## The host stretches, composed from the launch contents (any float family) -/

section Host
variable {F : FTy → Type} [FloatOps F]
variable (m : (ℓ : Loc nD τ sig) → Buf (Elt F) ℓ) (ρ : Dev nD → PrngReg)

/-- The node features reach the first kernel as launched. -/
theorem entry_x (c : Dev nD) : V3 m ρ c main_arg0 = m ((c : Thread nD τ).loc main_arg0) :=
  (third_keeps_x (W2 m ρ c)).trans ((second_keeps_x (W1 m ρ c)).trans (first_keeps_x (W0 m ρ c)))

/-- The bias is as launched at the first kernel's entry. -/
theorem early_b (c : Dev nD) : W3 m ρ c (Proc.devRef .tc main_arg3) = m ((c : Thread nD τ).loc main_arg3) :=
  (third_keeps_b (W2 m ρ c)).trans ((second_keeps_b (W1 m ρ c)).trans (first_keeps_b (W0 m ρ c)))

/-- The weight reaches the first kernel transposed. -/
theorem entry_wt (c : Dev nD) :
    V3 m ρ c main_v30 = Cert.ReferenceIdeal.ReadP.val_main_v30 (F := F) (m ((c : Thread nD τ).loc main_arg2)) :=
  (third_wt (W2 m ρ c)).trans (congrArg (Cert.ReferenceIdeal.ReadP.val_main_v30 (F := F))
    ((second_keeps_w (W1 m ρ c)).trans (first_keeps_w (W0 m ρ c))))

/-- The source nodes with the self loops appended, after the first two stretches. -/
theorem src_mid (c : Dev nD) :
    W2 m ρ c (Proc.devRef .tc main_v3) = Cert.ReferenceIdeal.ReadP.val_main_v3 (F := F) (m ((c : Thread nD τ).loc main_arg1)) :=
  (second_keeps_src (W1 m ρ c)).trans (first_src (W0 m ρ c))

/-- The target nodes with the self loops appended, after the first two stretches. -/
theorem dst_mid (c : Dev nD) :
    W2 m ρ c (Proc.devRef .tc main_v6) = Cert.ReferenceIdeal.ReadP.val_main_v6 (F := F) (m ((c : Thread nD τ).loc main_arg1)) :=
  (second_keeps_dst (W1 m ρ c)).trans (first_dst (W0 m ρ c))

/-- The inverse square-root degrees. -/
theorem dinv_mid (c : Dev nD) :
    W2 m ρ c (Proc.devRef .tc main_v14) = Cert.ReferenceIdeal.ReadP.val_main_v14 (F := F) (m ((c : Thread nD τ).loc main_arg1)) :=
  second_dinv (W1 m ρ c) (m ((c : Thread nD τ).loc main_arg1)) (first_pos (W0 m ρ c)) (first_rsqrt (W0 m ρ c)) (first_zero (W0 m ρ c))

/-- The node arrays and the per-edge normalization at the first kernel's entry. -/
theorem src_eq (c : Dev nD) :
    W3 m ρ c (Proc.devRef .tc main_v3) = Cert.ReferenceIdeal.ReadP.val_main_v3 (F := F) (m ((c : Thread nD τ).loc main_arg1)) :=
  (third_keeps_src (W2 m ρ c)).trans (src_mid m ρ c)
theorem dst_eq (c : Dev nD) :
    W3 m ρ c (Proc.devRef .tc main_v6) = Cert.ReferenceIdeal.ReadP.val_main_v6 (F := F) (m ((c : Thread nD τ).loc main_arg1)) :=
  (third_keeps_dst (W2 m ρ c)).trans (dst_mid m ρ c)
theorem norm_eq (c : Dev nD) :
    W3 m ρ c (Proc.devRef .tc main_v29) = Cert.ReferenceIdeal.ReadP.val_main_v29 (F := F) (m ((c : Thread nD τ).loc main_arg1)) :=
  third_norm (W2 m ρ c) (m ((c : Thread nD τ).loc main_arg1)) (src_mid m ρ c) (dst_mid m ρ c) (dinv_mid m ρ c)

/-- The aggregated features the second kernel finds are the edge stretch of the first kernel's result: the first
    kernel's region leaves the node arrays and the normalization where they were. -/
theorem aggregated (c : Dev nD) :
    V5 m ρ c main_v44
      = Cert.ReferenceIdeal.Chain.edgeSum (F := F) (W4 m ρ c (Proc.devRef .tc main_v31)) (m ((c : Thread nD τ).loc main_arg1)) :=
  between_agg (W4 m ρ c) (m ((c : Thread nD τ).loc main_arg1))
    ((W4_of_ne m ρ c main_v3 (by decide)).trans (src_eq m ρ c))
    ((W4_of_ne m ρ c main_v6 (by decide)).trans (dst_eq m ρ c))
    ((W4_of_ne m ρ c main_v29 (by decide)).trans (norm_eq m ρ c))

/-- The bias reaches the second kernel as launched. -/
theorem entry_b (c : Dev nD) : V5 m ρ c main_arg3 = m ((c : Thread nD τ).loc main_arg3) :=
  (between_keeps_b (W4 m ρ c)).trans ((W4_of_ne m ρ c main_arg3 (by decide)).trans (early_b m ρ c))

end Host

/-! ## The two kernels, over the extended reals -/

section Kernels
variable (m : (ℓ : Loc nD τ sig) → Buf (Elt Ideal) ℓ) (ρ : Dev nD → PrngReg)

/-- After the first kernel its result array holds `x · Wᵀ`. -/
theorem projected (c : Dev nD) :
    W4 m ρ c (Proc.devRef .tc main_v31)
      = Spec.proj (m ((c : Thread nD τ).loc main_arg0)) (Cert.ReferenceIdeal.ReadP.val_main_v30 (F := Ideal) (m ((c : Thread nD τ).loc main_arg2))) :=
  (W4_arr m ρ c 2).trans ((ProjArray.final (V3 m ρ) c).trans (by rw [entry_x m ρ c, entry_wt m ρ c]))

/-- The result array at the end of the run, as one function of the arguments. -/
theorem result (c : Dev nD) :
    W6 m ρ c (Proc.devRef .tc main_v45)
      = Spec.biasRelu (F := Ideal) (Cert.ReferenceIdeal.Chain.edgeSum (F := Ideal)
          (Spec.proj (m ((c : Thread nD τ).loc main_arg0)) (Cert.ReferenceIdeal.ReadP.val_main_v30 (F := Ideal) (m ((c : Thread nD τ).loc main_arg2))))
          (m ((c : Thread nD τ).loc main_arg1))) (m ((c : Thread nD τ).loc main_arg3)) :=
  (W6_arr m ρ c 2).trans ((EpiArray.final (V5 m ρ) c).trans (by rw [aggregated m ρ c, projected m ρ c, entry_b m ρ c]))

end Kernels

end Cert.KernelIdeal.Chain

end
-- ==== Proof.lean ====
/-
  A graph-convolution layer, tiled, against its plain definition, over the extended reals.

  Both programs compute `relu (S (x · Wᵀ) + b)`, where `S` adds the self loops, gathers the projected features at the
  source of every edge, scales each message by the product of the inverse square-root degrees of the edge's two ends, and
  sums the messages at their targets. The kernel does the projection as a matrix product in ten row blocks (operands
  narrowed to bf16, which changes nothing over the extended reals) and the bias-and-clamp epilogue in ten row blocks; the
  reference does one whole contraction and three elementwise host operations. `S` is the same sequence of host operations
  in both.

  Why they agree. A row of `x · Wᵀ` depends on that row of `x` alone, so the ten row blocks of the product are the rows of
  the whole product, and a block's entry is the same sum over the 128 input features as the contraction's (Spec.proj,
  ProjBlock, ProjArray; RefChain for the reference). The epilogue is elementwise with the bias read at the feature, so its
  ten row blocks are the rows of the whole map, which is what the reference's two broadcasts, sum and maximum are at an
  index (Spec.biasRelu, EpiBlock, EpiArray; RefChain). `S` is carried as ONE function of the projected features and the
  edge list and never opened: the values going in are equal, so the values coming out are (RefChain.edgeSum, KernelChain).
  No law beyond reading the two contractions as the same finite sum is used, so the inputs' finiteness is not needed.

  The three runs terminate with the arguments unchanged: the kernel's two generated frames, and the reference's run read
  back. The idealization rewrote nothing, so there is nothing to preserve.
-/
import proofs.«151086_j4217657884682_1_alg».proof.Defs
import proofs.«151086_j4217657884682_1_alg».proof.Proof.Gen.Kernel
import proofs.«151086_j4217657884682_1_alg».proof.Proof.Gen.Kernel.Skeleton
import proofs.«151086_j4217657884682_1_alg».proof.Proof.Gen.Kernel.Launch
import proofs.«151086_j4217657884682_1_alg».proof.Proof.Gen.Kernel.Points
import proofs.«151086_j4217657884682_1_alg».proof.Proof.Gen.Kernel.Frame
import proofs.«151086_j4217657884682_1_alg».proof.Proof.Gen.KernelIdeal
import proofs.«151086_j4217657884682_1_alg».proof.Proof.Gen.KernelIdeal.Skeleton
import proofs.«151086_j4217657884682_1_alg».proof.Proof.Gen.KernelIdeal.Launch
import proofs.«151086_j4217657884682_1_alg».proof.Proof.Gen.KernelIdeal.Points
import proofs.«151086_j4217657884682_1_alg».proof.Proof.Gen.KernelIdeal.Frame
import proofs.«151086_j4217657884682_1_alg».proof.Proof.Gen.ReferenceIdeal
import proofs.«151086_j4217657884682_1_alg».proof.Proof.Gen.Pre_finite_inputs
import proofs.«151086_j4217657884682_1_alg».proof.Proof.RunP
import proofs.«151086_j4217657884682_1_alg».proof.Proof.ReadP
import proofs.«151086_j4217657884682_1_alg».proof.Proof.RefChain
import proofs.«151086_j4217657884682_1_alg».proof.Proof.KernelRun
import proofs.«151086_j4217657884682_1_alg».proof.Proof.HostChain
import proofs.«151086_j4217657884682_1_alg».proof.Proof.KernelChain
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Nothing was rewritten. -/
theorem preserves : Cert.preserves_Kernel_KernelIdeal := trivial

/-- From memories that agree on the arguments both programs end with the result array at
    `biasRelu (edgeSum (proj x Wᵀ) e) b` of the arguments: the kernel's by the run read back through its two regions, the
    reference's by its run read stage by stage. -/
theorem algebraic : Cert.algebraic_KernelIdeal_ReferenceIdeal := by
  intro m ρ m' ρ' _ hagree
  refine ⟨fun c => Spec.biasRelu (F := Ideal) (Cert.ReferenceIdeal.Chain.edgeSum (F := Ideal)
      (Spec.proj (m ((c.tc : Thread Cert.KernelIdeal.nD Cert.KernelIdeal.τ).loc Cert.KernelIdeal.main_arg0))
        (Cert.ReferenceIdeal.ReadP.val_main_v30 (F := Ideal) (m ((c.tc : Thread Cert.KernelIdeal.nD Cert.KernelIdeal.τ).loc Cert.KernelIdeal.main_arg2))))
      (m ((c.tc : Thread Cert.KernelIdeal.nD Cert.KernelIdeal.τ).loc Cert.KernelIdeal.main_arg1)))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Chain.result m ρ c), (h c).2⟩)
      (Cert.KernelIdeal.GenP.run_named (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v48_eq, Cert.ReferenceIdeal.Chain.result_eq,
      (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
